-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn {F : FTy → Type} [FloatOps F] (main_arg0 : FVec F S16384x2048 .f32) (main_arg1 : IVec S8 32) (main_arg2 : FVec F S8x2048x2816 .f32) (main_arg3 : FVec F S8x1408x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2816 .f32 := Host.absf main_arg2
  let main_cst_0 : FVec F S_ .f32 := constant S_ .f32 0x7F800000#32
  let main_v5 : FVec F S8x2048x2816 .f32 := broadcastInDim S8x2048x2816 ![] bcast_S_S8x2048x2816 main_cst_0
  let main_v6 : IVec S8x2048x2816 1 := cmpf .olt main_v4 main_v5
  let main_c_1 : IVec S_ 1 := constantI S_ 1 1#1
  let main_v7 : IVec S_ 1 := (fun x v => Host.reduce IntOp.andi x v reducesTo_S8x2048x2816_S_d0_1_2 h_S_) main_v6 main_c_1
  let main_v8 : IVec S_ 1 := andi main_v3 main_v7
  let main_v9 : FVec F S8x1408x2048 .f32 := Host.absf main_arg3
  let main_cst_2 : FVec F S_ .f32 := constant S_ .f32 0x7F800000#32
  let main_v10 : FVec F S8x1408x2048 .f32 := broadcastInDim S8x1408x2048 ![] bcast_S_S8x1408x2048 main_cst_2
  let main_v11 : IVec S8x1408x2048 1 := cmpf .olt main_v9 main_v10
  let main_c_3 : IVec S_ 1 := constantI S_ 1 1#1
  let main_v12 : IVec S_ 1 := (fun x v => Host.reduce IntOp.andi x v reducesTo_S8x1408x2048_S_d0_1_2 h_S_) main_v11 main_c_3
  let main_v13 : IVec S_ 1 := andi main_v8 main_v12
  main_v13
-- ==== Kernel.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S8x2048x2048 : Shape := ⟨3, ![8, 2048, 2048]⟩
abbrev S1x256x2048 : Shape := ⟨3, ![1, 256, 2048]⟩
abbrev S1x2048x2816 : Shape := ⟨3, ![1, 2048, 2816]⟩
abbrev S1x1408x2048 : Shape := ⟨3, ![1, 1408, 2048]⟩
abbrev S256x2048 : Shape := ⟨2, ![256, 2048]⟩
abbrev S2048x2816 : Shape := ⟨2, ![2048, 2816]⟩
abbrev S256x2816 : Shape := ⟨2, ![256, 2816]⟩
abbrev S256x1408 : Shape := ⟨2, ![256, 1408]⟩
abbrev S1408x2048 : Shape := ⟨2, ![1408, 2048]⟩

abbrev nBuf : Space → Nat
  | .hbm => 10
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x2816, .f32⟩
  | .hbm, ⟨3, _⟩ => ⟨S8x1408x2048, .f32⟩
  | .hbm, ⟨4, _⟩ => ⟨S8x2048x2048, .f32⟩
  | .hbm, ⟨5, _⟩ => ⟨S8x2048x2048, .bf16⟩
  | .hbm, ⟨6, _⟩ => ⟨S8x2048x2816, .bf16⟩
  | .hbm, ⟨7, _⟩ => ⟨S8x1408x2048, .bf16⟩
  | .hbm, ⟨8, _⟩ => ⟨S8x2048x2048, .f32⟩
  | .hbm, ⟨9, _⟩ => ⟨S16384x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x2816, .bf16⟩
  | .local _ .vmem, ⟨3, _⟩ => ⟨S1x1408x2048, .bf16⟩
  | .local _ .vmem, ⟨4, _⟩ => ⟨S1x256x2048, .f32⟩
  | .local _ .vmem, ⟨5, _⟩ => ⟨S1x256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1408x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x2048_S8x2048x2048 : S16384x2048.ShapeCasts S8x2048x2048
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x2816_S1x2048x2816_0_0_0 : ∀ a, (![0, 0, 0] : Fin 3 → Nat) a + S1x2048x2816.size a ≤ S1x2048x2816.size a
  h_S1x2048x2816 : 0 < S1x2048x2816.numel
  shapeCasts_S1x2048x2816_S2048x2816 : S1x2048x2816.ShapeCasts S2048x2816
  slices_S256x2816_o0_0_S256x1408 : S256x2816.Slices ![0, 0] S256x1408
  slices_S256x2816_o0_1408_S256x1408 : S256x2816.Slices ![0, 1408] S256x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  shapeCasts_S256x2048_S1x256x2048 : S256x2048.ShapeCasts S1x256x2048
  shapeCasts_S8x2048x2048_S16384x2048 : S8x2048x2048.ShapeCasts S16384x2048
  dot_S256x2048_S2048x2816_S256x2816_1_0_0_1_n_n_wf : DotDims.WF S256x2048 S2048x2816 S256x2816 [1] [0] [0] [1] [] []
  dot_S256x1408_S1408x2048_S256x2048_1_0_0_1_n_n_wf : DotDims.WF S256x1408 S1408x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .bf16 = 32 ∨ (Rect.block (s := S8x2048x2048) S1x256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2816.size a ≤ S8x2048x2816.size a
  hwx0_1 : ∀ i : grid0.Coords, EltTy.bits .bf16 = 32 ∨ (Rect.block (s := S8x2048x2816) S1x2048x2816.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1408x2048.size a ≤ S8x1408x2048.size a
  hwx0_2 : ∀ i : grid0.Coords, EltTy.bits .bf16 = 32 ∨ (Rect.block (s := S8x1408x2048) S1x1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)

variable [Facts₀]

def dot_S256x2048_S2048x2816_S256x2816_1_0_0_1_n_n : DotDims S256x2048 S2048x2816 S256x2816 where
  lhsContracting := [1]
  rhsContracting := [0]
  lhsNonContracting := [0]
  rhsNonContracting := [1]
  lhsBatch := []
  rhsBatch := []
  wf := dot_S256x2048_S2048x2816_S256x2816_1_0_0_1_n_n_wf
def dot_S256x1408_S1408x2048_S256x2048_1_0_0_1_n_n : DotDims S256x1408 S1408x2048 S256x2048 where
  lhsContracting := [1]
  rhsContracting := [0]
  lhsNonContracting := [0]
  rhsNonContracting := [1]
  lhsBatch := []
  rhsBatch := []
  wf := dot_S256x1408_S1408x2048_S256x2048_1_0_0_1_n_n_wf

abbrev win0_0 : Pipeline.Window sig grid0 :=
  Pipeline.Window.ofSpec (Memref.whole main_v1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x2816.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1408x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S8x2048x2048 : Shape := ⟨3, ![8, 2048, 2048]⟩
abbrev S8x2048x1408 : Shape := ⟨3, ![8, 2048, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x2816, .f32⟩
  | .hbm, ⟨3, _⟩ => ⟨S8x1408x2048, .f32⟩
  | .hbm, ⟨4, _⟩ => ⟨S8x2048x2048, .f32⟩
  | .hbm, ⟨5, _⟩ => ⟨S8x2048x2816, .f32⟩
  | .hbm, ⟨6, _⟩ => ⟨S8x2048x1408, .f32⟩
  | .hbm, ⟨7, _⟩ => ⟨S8x2048x1408, .f32⟩
  | .hbm, ⟨8, _⟩ => ⟨S8x2048x1408, .f32⟩
  | .hbm, ⟨9, _⟩ => ⟨S8x2048x1408, .f32⟩
  | .hbm, ⟨10, _⟩ => ⟨S_, .f32⟩
  | .hbm, ⟨11, _⟩ => ⟨S8x2048x1408, .f32⟩
  | .hbm, ⟨12, _⟩ => ⟨S8x2048x1408, .f32⟩
  | .hbm, ⟨13, _⟩ => ⟨S_, .f32⟩
  | .hbm, ⟨14, _⟩ => ⟨S8x2048x1408, .f32⟩
  | .hbm, ⟨15, _⟩ => ⟨S8x2048x1408, .f32⟩
  | .hbm, ⟨16, _⟩ => ⟨S8x2048x1408, .f32⟩
  | .hbm, ⟨17, _⟩ => ⟨S8x2048x1408, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x2816_S8x2048x1408_0_0_0 : S8x2048x2816.Slices ![0, 0, 0] S8x2048x1408
  slices_S8x2048x2816_S8x2048x1408_0_0_1408 : S8x2048x2816.Slices ![0, 0, 1408] S8x2048x1408
  bcast_S_S8x2048x1408 : S_.BroadcastsInDim S8x2048x1408 (![] : Fin 0 → Fin S8x2048x1408.rank)
  shapeCasts_S8x2048x2048_S16384x2048 : S8x2048x2048.ShapeCasts S16384x2048
  dot_S8x2048x2048_S8x2048x2816_S8x2048x2816_2_1_1_2_0_0_wf : DotDims.WF S8x2048x2048 S8x2048x2816 S8x2048x2816 [2] [1] [1] [2] [0] [0]
  dot_S8x2048x1408_S8x1408x2048_S8x2048x2048_2_1_1_2_0_0_wf : DotDims.WF S8x2048x1408 S8x1408x2048 S8x2048x2048 [2] [1] [1] [2] [0] [0]

variable [Facts₀]

def dot_S8x2048x2048_S8x2048x2816_S8x2048x2816_2_1_1_2_0_0 : DotDims S8x2048x2048 S8x2048x2816 S8x2048x2816 where
  lhsContracting := [2]
  rhsContracting := [1]
  lhsNonContracting := [1]
  rhsNonContracting := [2]
  lhsBatch := [0]
  rhsBatch := [0]
  wf := dot_S8x2048x2048_S8x2048x2816_S8x2048x2816_2_1_1_2_0_0_wf
def dot_S8x2048x1408_S8x1408x2048_S8x2048x2048_2_1_1_2_0_0 : DotDims S8x2048x1408 S8x1408x2048 S8x2048x2048 where
  lhsContracting := [2]
  rhsContracting := [1]
  lhsNonContracting := [1]
  rhsNonContracting := [2]
  lhsBatch := [0]
  rhsBatch := [0]
  wf := dot_S8x2048x1408_S8x1408x2048_S8x2048x2048_2_1_1_2_0_0_wf

class Facts : Prop extends Facts₀ where

variable [Facts]
-- ==== Proof.Spec.lean ====
/-
  The mathematics both programs compute, stated once over the extended reals.

  Tokens are grouped by expert: row `e * 2048 + r` of the [16384, 2048] token array is token `r` of expert `e`.
  For one token row `X` (2048 entries), one expert's up-projection `W1` ([2048, 2816]) and one output column of its
  down-projection `W2` (1408 entries), the gated MLP is

      mlp X W1 W2 = ∑ f < 1408, ((a f · σ (a f)) · b f) · W2 f,
        a f = ∑ k < 2048, X k · W1 k f,        b f = ∑ k < 2048, X k · W1 k (1408 + f),

  with `σ` the logistic function `1 / (1 + e^(-a))` of the extended reals (`Ideal.logistic`: `⊥ ↦ 0`, `⊤ ↦ 1`).
  The result array `G` at (e, r, h) is `mlp` of token (e, r), expert `e`'s up-projection and column `h` of expert
  `e`'s down-projection. The products are grouped `(a · σ a) · b` in both programs, and every sum runs over the same
  index set in the same order of its terms' factors, so no law beyond the definitions is needed to join them.
-/
import Idealize.ShloMosaic.PureOps.Ideal
import Idealize.ShloMosaic.PureOps.Ideal.Laws
import Idealize.ShloMosaic.Lib.ValueIdx

noncomputable section

open scoped BigOperators

namespace Cert.GatedMlp

open Idealize.ShloMosaic Idealize.ShloMosaic.ValueIdx

/-- The gate of one hidden unit: `(a · σ(a)) · b`. -/
def gate (a b : EReal) : EReal := (a * Ideal.logistic a) * b

/-- Column `f` of the first half of the up-projection's 2816 columns. -/
abbrev lo (f : Fin 1408) : Fin 2816 := ⟨f.val, by have := f.isLt; omega⟩
/-- Column `1408 + f`: the matching column of the second half. -/
abbrev hi (f : Fin 1408) : Fin 2816 := ⟨1408 + f.val, by have := f.isLt; omega⟩

/-- One output element: a token row through one expert's gated MLP, against one column of the down-projection. -/
def mlp (X : Fin 2048 → EReal) (W1 : Fin 2048 → Fin 2816 → EReal) (W2 : Fin 1408 → EReal) : EReal :=
  ∑ f : Fin 1408, gate (∑ k : Fin 2048, X k * W1 k (lo f)) (∑ k : Fin 2048, X k * W1 k (hi f)) * W2 f

/-- Token `r` of expert `e` is row `e * 2048 + r` of the token array. -/
abbrev tok (e : Fin 8) (r : Fin 2048) : Fin 16384 := ⟨e.val * 2048 + r.val, by have := e.isLt; have := r.isLt; omega⟩

/-- The [8, 2048, 2048] result, index by index, as a function of the three float arguments. -/
def G (x : (⟨2, ![16384, 2048]⟩ : Shape).Idx → EReal) (w1 : (⟨3, ![8, 2048, 2816]⟩ : Shape).Idx → EReal)
    (w2 : (⟨3, ![8, 1408, 2048]⟩ : Shape).Idx → EReal) : (⟨3, ![8, 2048, 2048]⟩ : Shape).Idx → EReal := fun i =>
  mlp (fun k => x (ix2 (tok (i 0) (i 1)) k)) (fun k f => w1 (ix3 (i 0) k f)) (fun f => w2 (ix3 (i 0) f (i 2)))

/-- The float pattern of `1.0` denotes the real number one. -/
theorem one_f32 : Ideal.ofBits .f32 0x3F800000#32 = (1 : EReal) := by
  simp [Ideal.ofBits, Ideal.ieee, -EReal.coe_mul]; norm_num

/-- The logistic function spelt out with the host's negation, exponential, sum and quotient is `Ideal.logistic`. -/
theorem host_sigmoid (a : EReal) :
    Ideal.div (Ideal.ofBits .f32 0x3F800000#32) (Ideal.ofBits .f32 0x3F800000#32 + Ideal.exp (-a)) = Ideal.logistic a := by
  rw [one_f32]; rfl

end Cert.GatedMlp

end
-- ==== Proof.RefSide.lean ====
/-
  The reference's [8, 2048, 2048] stage (its second batched product, before the final reshape) is `G`.

  Read index by index: the first batched product at (e, r, f) contracts row `e * 2048 + r` of the token array (the
  reshape [16384, 2048] → [8, 2048, 2048] is row-major, so (e, r, k) is flat position (e * 2048 + r) * 2048 + k) with
  column `f` of expert `e`'s up-projection; the two slices take columns `f` and `1408 + f`; the logistic function is
  spelt with negate, exponential, add and divide, which on the extended reals is `Ideal.logistic`; the second
  batched product contracts the gated hidden units with column `h` of expert `e`'s down-projection.
-/
import proofs.«170765_j60026462929318_1_alg».proof.Proof.Gen.ReferenceIdeal.Read
import proofs.«170765_j60026462929318_1_alg».proof.Proof.Spec

noncomputable section

open scoped BigOperators

namespace Cert.ReferenceIdeal.RefValue

open Cert.ReferenceIdeal Cert.ReferenceIdeal.Read Cert.GatedMlp Idealize.ShloMosaic Idealize.ShloMosaic.ValueIdx

/-- The up-projection at (e, r, f): token row `e * 2048 + r` against column `f` of expert `e`. -/
theorem up_apply (x0 : (⟨S16384x2048, .f32⟩ : BufTy).Contents (Elt Ideal)) (x2 : (⟨S8x2048x2816, .f32⟩ : BufTy).Contents (Elt Ideal))
    (j : S8x2048x2816.Idx) :
    val_main_v1 (F := Ideal) x0 x2 j = ∑ k : Fin 2048, x0 (ix2 (tok (j 0) (j 1)) k) * x2 (ix3 (j 0) k (j 2)) := by
  rw [val_main_v1_apply]
  refine Finset.sum_congr rfl fun k _ => ?_
  rw [val_main_v0_apply]
  have e1 : idx_main_v0 (lidx_main_v1 j k) = ix2 (tok (j 0) (j 1)) k := by
    funext a; apply Fin.ext
    match a with
    | ⟨0, _⟩ =>
      show (((j 0).val * 2048 + (j 1).val) * 2048 + k.val) / 2048 = (j 0).val * 2048 + (j 1).val
      have := k.isLt; omega
    | ⟨1, _⟩ =>
      show (((j 0).val * 2048 + (j 1).val) * 2048 + k.val) % 2048 = k.val
      have := k.isLt; omega
  have e2 : ridx_main_v1 j k = ix3 (j 0) k (j 2) := by
    funext a; match a with | ⟨0, _⟩ => rfl | ⟨1, _⟩ => rfl | ⟨2, _⟩ => rfl
  rw [e1, e2]
  rfl

/-- The gated hidden unit at (e, r, f): the gate of the up-projection's columns `f` and `1408 + f`. -/
theorem act_apply (x0 : (⟨S16384x2048, .f32⟩ : BufTy).Contents (Elt Ideal)) (x2 : (⟨S8x2048x2816, .f32⟩ : BufTy).Contents (Elt Ideal))
    (j : S8x2048x1408.Idx) :
    val_main_v5 (F := Ideal) x0 x2 j
      = gate (val_main_v1 (F := Ideal) x0 x2 (idx_main_v2 j)) (val_main_v1 (F := Ideal) x0 x2 (idx_main_v3 j)) := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v3_apply]
  simp only [Ideal.mulf_def, Ideal.hostDivf_def, Ideal.addf_def, Ideal.hostUnary_exp_def, Ideal.hostNegf_def, Ideal.negf_def,
    Ideal.ofBits_def]
  rw [host_sigmoid]
  rfl

/-- The reference's last stage before its reshape is `G` of the arguments. -/
theorem stage_eq (x0 : (⟨S16384x2048, .f32⟩ : BufTy).Contents (Elt Ideal)) (x2 : (⟨S8x2048x2816, .f32⟩ : BufTy).Contents (Elt Ideal))
    (x3 : (⟨S8x1408x2048, .f32⟩ : BufTy).Contents (Elt Ideal)) :
    val_main_v6 (F := Ideal) x0 x2 x3 = G x0 x2 x3 := by
  funext i
  rw [val_main_v6_apply]
  unfold G mlp
  refine Finset.sum_congr rfl fun f _ => ?_
  rw [act_apply, up_apply, up_apply]
  have e : ridx_main_v6 i f = ix3 (i 0) f (i 2) := by
    funext a; match a with | ⟨0, _⟩ => rfl | ⟨1, _⟩ => rfl | ⟨2, _⟩ => rfl
  rw [e]
  rfl

end Cert.ReferenceIdeal.RefValue

end
-- ==== Proof.Payload.lean ====
/-
  What one grid point of the kernel stores, element by element, over the extended reals.

  The body loads a [1, 256, 2048] block of tokens, one expert's [1, 2048, 2816] up-projection and its [1, 1408, 2048]
  down-projection, drops the unit axes, multiplies tokens by the up-projection into a zero accumulator, splits the
  2816 columns in halves, gates the first half by the logistic function and the second half, multiplies by the
  down-projection into a zero accumulator, and stores the [256, 2048] product back under a unit axis. A change of
  float format is the identity on the extended reals and a product into a zero accumulator is the plain sum, so the
  element stored at (0, p, h) is `mlp` of token row `p` of the block, the up-projection block and column `h` of the
  down-projection block.
-/
import proofs.«170765_j60026462929318_1_alg».proof.Proof.Gen.KernelIdeal.Skeleton
import proofs.«170765_j60026462929318_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.GatedMlp Idealize.ShloMosaic Idealize.ShloMosaic.ValueIdx

/-! ## The unit axis dropped and added, and the two column halves -/

section Layout
variable {α : Type}

/-- A [1, 256, 2048] block viewed [256, 2048] reads (0, p, k) at (p, k). -/
theorem drop_tok (v : S1x256x2048.Idx → α) (h : S1x256x2048.ShapeCasts S256x2048) (p : Fin 256) (k : Fin 2048) :
    shapeCast S256x2048 v h (ix2 p k) = v (ix3 0 p k) :=
  shapeCast_apply v h (ix2 p k) (ix3 0 p k) (by
    rewrite [Shape.rowMajor_val_three, Shape.rowMajor_val_two]
    show (0 * 256 + p.val) * 2048 + k.val = p.val * 2048 + k.val
    omega)

/-- A [1, 2048, 2816] block viewed [2048, 2816] reads (0, k, f) at (k, f). -/
theorem drop_up (v : S1x2048x2816.Idx → α) (h : S1x2048x2816.ShapeCasts S2048x2816) (k : Fin 2048) (f : Fin 2816) :
    shapeCast S2048x2816 v h (ix2 k f) = v (ix3 0 k f) :=
  shapeCast_apply v h (ix2 k f) (ix3 0 k f) (by
    rewrite [Shape.rowMajor_val_three, Shape.rowMajor_val_two]
    show (0 * 2048 + k.val) * 2816 + f.val = k.val * 2816 + f.val
    omega)

/-- A [1, 1408, 2048] block viewed [1408, 2048] reads (0, f, h) at (f, h). -/
theorem drop_down (v : S1x1408x2048.Idx → α) (h : S1x1408x2048.ShapeCasts S1408x2048) (f : Fin 1408) (c : Fin 2048) :
    shapeCast S1408x2048 v h (ix2 f c) = v (ix3 0 f c) :=
  shapeCast_apply v h (ix2 f c) (ix3 0 f c) (by
    rewrite [Shape.rowMajor_val_three, Shape.rowMajor_val_two]
    show (0 * 1408 + f.val) * 2048 + c.val = f.val * 2048 + c.val
    omega)

/-- A [256, 2048] result stored as a [1, 256, 2048] block reads (p, c) at (z, p, c). -/
theorem add_unit (v : S256x2048.Idx → α) (h : S256x2048.ShapeCasts S1x256x2048) (z : Fin 1) (p : Fin 256) (c : Fin 2048) :
    shapeCast S1x256x2048 v h (ix3 z p c) = v (ix2 p c) :=
  shapeCast_apply v h (ix3 z p c) (ix2 p c) (by
    rewrite [Shape.rowMajor_val_three, Shape.rowMajor_val_two]
    show p.val * 2048 + c.val = (z.val * 256 + p.val) * 2048 + c.val
    have := z.isLt
    omega)

/-- The first 1408 columns. -/
theorem slice_lo (v : S256x2816.Idx → α) (h : S256x2816.Slices ![0, 0] S256x1408) (p : Fin 256) (f : Fin 1408) :
    extractStridedSlice S256x1408 ![0, 0] v h (ix2 p f) = v (ix2 p (lo f)) :=
  extractStridedSlice_apply ![0, 0] v h (ix2 p f) (ix2 p (lo f)) (fun a => match a with
    | ⟨0, _⟩ => by show p.val = 0 + p.val; omega
    | ⟨1, _⟩ => by show f.val = 0 + f.val; omega)

/-- The last 1408 columns. -/
theorem slice_hi (v : S256x2816.Idx → α) (h : S256x2816.Slices ![0, 1408] S256x1408) (p : Fin 256) (f : Fin 1408) :
    extractStridedSlice S256x1408 ![0, 1408] v h (ix2 p f) = v (ix2 p (hi f)) :=
  extractStridedSlice_apply ![0, 1408] v h (ix2 p f) (ix2 p (hi f)) (fun a => match a with
    | ⟨0, _⟩ => by show p.val = 0 + p.val; omega
    | ⟨1, _⟩ => by show 1408 + f.val = 1408 + f.val; omega)

end Layout

/-! ## The two products as sums over the contracted coordinate -/

theorem up_lhs_0 (i : S256x2816.Idx) (q : dot_S256x2048_S2048x2816_S256x2816_1_0_0_1_n_n.contr.Idx) :
    (dot_S256x2048_S2048x2816_S256x2816_1_0_0_1_n_n.lhsIdx i q 0).val = (i 0).val := by
  unfold DotDims.lhsIdx
  rw [dif_neg (show ¬(0 : Fin S256x2048.rank) ∈ dot_S256x2048_S2048x2816_S256x2816_1_0_0_1_n_n.lhsBatch by decide),
    dif_pos (show (0 : Fin S256x2048.rank) ∈ dot_S256x2048_S2048x2816_S256x2816_1_0_0_1_n_n.lhsNonContracting by decide)]
  rfl
theorem up_lhs_1 (i : S256x2816.Idx) (q : dot_S256x2048_S2048x2816_S256x2816_1_0_0_1_n_n.contr.Idx) :
    (dot_S256x2048_S2048x2816_S256x2816_1_0_0_1_n_n.lhsIdx i q 1).val = (q ⟨0, by decide⟩).val :=
  dot_S256x2048_S2048x2816_S256x2816_1_0_0_1_n_n.lhsIdx_val_of_single rfl i q
theorem up_rhs_0 (i : S256x2816.Idx) (q : dot_S256x2048_S2048x2816_S256x2816_1_0_0_1_n_n.contr.Idx) :
    (dot_S256x2048_S2048x2816_S256x2816_1_0_0_1_n_n.rhsIdx i q 0).val = (q ⟨0, by decide⟩).val :=
  dot_S256x2048_S2048x2816_S256x2816_1_0_0_1_n_n.rhsIdx_val_of_single rfl i q
theorem up_rhs_1 (i : S256x2816.Idx) (q : dot_S256x2048_S2048x2816_S256x2816_1_0_0_1_n_n.contr.Idx) :
    (dot_S256x2048_S2048x2816_S256x2816_1_0_0_1_n_n.rhsIdx i q 1).val = (i 1).val := by
  unfold DotDims.rhsIdx
  rw [dif_neg (show ¬(1 : Fin S2048x2816.rank) ∈ dot_S256x2048_S2048x2816_S256x2816_1_0_0_1_n_n.rhsBatch by decide),
    dif_pos (show (1 : Fin S2048x2816.rank) ∈ dot_S256x2048_S2048x2816_S256x2816_1_0_0_1_n_n.rhsNonContracting by decide)]
  rfl

/-- Tokens times up-projection into a zero accumulator, at (p, f): the sum over the 2048 hidden coordinates. -/
theorem up_apply (l : FVec Ideal S256x2048 .bf16) (r : FVec Ideal S2048x2816 .bf16) (p : Fin 256) (f : Fin 2816) :
    matmul dot_S256x2048_S2048x2816_S256x2816_1_0_0_1_n_n none l r (constant S256x2816 .f32 0x00000000#32) (ix2 p f)
      = ∑ k : Fin 2048, l (ix2 p k) * r (ix2 k f) := by
  simp only [matmul]
  rw [Ideal.matmul_constant_zero_apply,
    ← Equiv.sum_comp (ValueIdx.contrEquiv1 dot_S256x2048_S2048x2816_S256x2816_1_0_0_1_n_n 2048 rfl rfl).symm]
  refine Finset.sum_congr rfl fun k _ => ?_
  have hk := ValueIdx.contrEquiv1_symm_val dot_S256x2048_S2048x2816_S256x2816_1_0_0_1_n_n 2048 rfl rfl k
  have el : dot_S256x2048_S2048x2816_S256x2816_1_0_0_1_n_n.lhsIdx (ix2 p f)
      ((ValueIdx.contrEquiv1 dot_S256x2048_S2048x2816_S256x2816_1_0_0_1_n_n 2048 rfl rfl).symm k) = ix2 p k :=
    funext fun a => Fin.ext (by
      match a with
      | ⟨0, _⟩ => exact up_lhs_0 _ _
      | ⟨1, _⟩ => exact (up_lhs_1 _ _).trans hk)
  have er : dot_S256x2048_S2048x2816_S256x2816_1_0_0_1_n_n.rhsIdx (ix2 p f)
      ((ValueIdx.contrEquiv1 dot_S256x2048_S2048x2816_S256x2816_1_0_0_1_n_n 2048 rfl rfl).symm k) = ix2 k f :=
    funext fun a => Fin.ext (by
      match a with
      | ⟨0, _⟩ => exact (up_rhs_0 _ _).trans hk
      | ⟨1, _⟩ => exact up_rhs_1 _ _)
  rw [el, er]

theorem down_lhs_0 (i : S256x2048.Idx) (q : dot_S256x1408_S1408x2048_S256x2048_1_0_0_1_n_n.contr.Idx) :
    (dot_S256x1408_S1408x2048_S256x2048_1_0_0_1_n_n.lhsIdx i q 0).val = (i 0).val := by
  unfold DotDims.lhsIdx
  rw [dif_neg (show ¬(0 : Fin S256x1408.rank) ∈ dot_S256x1408_S1408x2048_S256x2048_1_0_0_1_n_n.lhsBatch by decide),
    dif_pos (show (0 : Fin S256x1408.rank) ∈ dot_S256x1408_S1408x2048_S256x2048_1_0_0_1_n_n.lhsNonContracting by decide)]
  rfl
theorem down_lhs_1 (i : S256x2048.Idx) (q : dot_S256x1408_S1408x2048_S256x2048_1_0_0_1_n_n.contr.Idx) :
    (dot_S256x1408_S1408x2048_S256x2048_1_0_0_1_n_n.lhsIdx i q 1).val = (q ⟨0, by decide⟩).val :=
  dot_S256x1408_S1408x2048_S256x2048_1_0_0_1_n_n.lhsIdx_val_of_single rfl i q
theorem down_rhs_0 (i : S256x2048.Idx) (q : dot_S256x1408_S1408x2048_S256x2048_1_0_0_1_n_n.contr.Idx) :
    (dot_S256x1408_S1408x2048_S256x2048_1_0_0_1_n_n.rhsIdx i q 0).val = (q ⟨0, by decide⟩).val :=
  dot_S256x1408_S1408x2048_S256x2048_1_0_0_1_n_n.rhsIdx_val_of_single rfl i q
theorem down_rhs_1 (i : S256x2048.Idx) (q : dot_S256x1408_S1408x2048_S256x2048_1_0_0_1_n_n.contr.Idx) :
    (dot_S256x1408_S1408x2048_S256x2048_1_0_0_1_n_n.rhsIdx i q 1).val = (i 1).val := by
  unfold DotDims.rhsIdx
  rw [dif_neg (show ¬(1 : Fin S1408x2048.rank) ∈ dot_S256x1408_S1408x2048_S256x2048_1_0_0_1_n_n.rhsBatch by decide),
    dif_pos (show (1 : Fin S1408x2048.rank) ∈ dot_S256x1408_S1408x2048_S256x2048_1_0_0_1_n_n.rhsNonContracting by decide)]
  rfl

/-- Gated hidden units times down-projection into a zero accumulator, at (p, c): the sum over the 1408 units. -/
theorem down_apply (l : FVec Ideal S256x1408 .bf16) (r : FVec Ideal S1408x2048 .bf16) (p : Fin 256) (c : Fin 2048) :
    matmul dot_S256x1408_S1408x2048_S256x2048_1_0_0_1_n_n none l r (constant S256x2048 .f32 0x00000000#32) (ix2 p c)
      = ∑ f : Fin 1408, l (ix2 p f) * r (ix2 f c) := by
  simp only [matmul]
  rw [Ideal.matmul_constant_zero_apply,
    ← Equiv.sum_comp (ValueIdx.contrEquiv1 dot_S256x1408_S1408x2048_S256x2048_1_0_0_1_n_n 1408 rfl rfl).symm]
  refine Finset.sum_congr rfl fun k _ => ?_
  have hk := ValueIdx.contrEquiv1_symm_val dot_S256x1408_S1408x2048_S256x2048_1_0_0_1_n_n 1408 rfl rfl k
  have el : dot_S256x1408_S1408x2048_S256x2048_1_0_0_1_n_n.lhsIdx (ix2 p c)
      ((ValueIdx.contrEquiv1 dot_S256x1408_S1408x2048_S256x2048_1_0_0_1_n_n 1408 rfl rfl).symm k) = ix2 p k :=
    funext fun a => Fin.ext (by
      match a with
      | ⟨0, _⟩ => exact down_lhs_0 _ _
      | ⟨1, _⟩ => exact (down_lhs_1 _ _).trans hk)
  have er : dot_S256x1408_S1408x2048_S256x2048_1_0_0_1_n_n.rhsIdx (ix2 p c)
      ((ValueIdx.contrEquiv1 dot_S256x1408_S1408x2048_S256x2048_1_0_0_1_n_n 1408 rfl rfl).symm k) = ix2 k c :=
    funext fun a => Fin.ext (by
      match a with
      | ⟨0, _⟩ => exact (down_rhs_0 _ _).trans hk
      | ⟨1, _⟩ => exact down_rhs_1 _ _)
  rw [el, er]

/-! ## The stored block at an index -/

/-- The logistic function of a vector at an index. -/
theorem logistic_apply {s : Shape} {φ : FTy} (a : FVec Ideal s φ) (i : s.Idx) : logistic a i = Ideal.logistic (a i) := rfl

/-- The element the body stores at (z, p, c) of the output block: `mlp` of row `p` of the token block, the
    up-projection block and column `c` of the down-projection block. -/
theorem stored_apply (x0 : Vec Ideal S1x256x2048 .bf16) (x1 : Vec Ideal S1x2048x2816 .bf16) (x2 : Vec Ideal S1x1408x2048 .bf16)
    (z : Fin 1) (p : Fin 256) (c : Fin 2048) :
    k0_pay1 (F := Ideal) x0 x1 x2 (ix3 z p c)
      = mlp (fun k => x0 (ix3 0 p k)) (fun k f => x1 (ix3 0 k f)) (fun f => x2 (ix3 0 f c)) := by
  unfold k0_pay1
  rw [add_unit, down_apply]
  unfold mlp
  refine Finset.sum_congr rfl fun f _ => ?_
  rw [drop_down, truncf_apply, mulf_apply, mulf_apply, logistic_apply, slice_lo, slice_hi, up_apply, up_apply]
  simp only [drop_tok, drop_up]
  rfl

end Cert.KernelIdeal.Body

end
-- ==== Proof.Region.lean ====
/-
  The kernel's result array, from its blocks.

  The grid has 8 × 8 points; point `t` is expert `t / 8`, token tile `t % 8`. At point `t` the pipeline stages rows
  `(t % 8) · 256 … + 255` of expert `t / 8`'s tokens (the token array reshaped [8, 2048, 2048] and narrowed to bf16
  before the region: on the extended reals the narrowing is the identity, and the row-major reshape puts token `r` of
  expert `e` at row `e · 2048 + r`), the whole of expert `t / 8`'s two weight arrays (narrowed likewise), and writes
  back rows `(t % 8) · 256 … + 255` of expert `t / 8`'s result. So what point `t` writes back is block `t` of `G` of the
  three arguments, the 64 blocks tile the [8, 2048, 2048] array, and the array ends holding `G`. The one host
  operation after the region reshapes it to [16384, 2048].
-/
import proofs.«170765_j60026462929318_1_alg».proof.Proof.Gen.KernelIdeal.Frame
import proofs.«170765_j60026462929318_1_alg».proof.Proof.Payload
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Region

open Cert.KernelIdeal Cert.KernelIdeal.Gen Cert.GatedMlp Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three float arguments as launched. -/
abbrev xarg (c : Dev nD) : S16384x2048.Idx → EReal := m ((c : Thread nD τ).loc main_arg0)
abbrev w1arg (c : Dev nD) : S8x2048x2816.Idx → EReal := m ((c : Thread nD τ).loc main_arg2)
abbrev w2arg (c : Dev nD) : S8x1408x2048.Idx → EReal := m ((c : Thread nD τ).loc main_arg3)

/-! ## What the region finds in the three staged arrays -/

/-- Token `r` of expert `e`, hidden coordinate `k`, of the reshaped and narrowed token array is the argument's row
    `e · 2048 + r`. -/
theorem tokens_entry (c : Dev nD) (e : Fin 8) (r : Fin 2048) (k : Fin 2048) :
    (V m c main_v1 : S8x2048x2048.Idx → EReal) (ix3 e r k) = xarg m c (ix2 (tok e r) k) := by
  have h : (V m c main_v1 : S8x2048x2048.Idx → EReal)
      = (truncf (F := Ideal) .bf16 (shapeCast S8x2048x2048 (xarg m c) shapeCasts_S16384x2048_S8x2048x2048) bitsLt_bf16_f32
          : FVec Ideal S8x2048x2048 .bf16) := by
    show StableHlo.after hostOps0 (fun b => m (c, b)) (Proc.devRef .tc main_v1) = _
    after_results
    rfl
  rw [h, truncf_apply]
  exact shapeCast_apply _ _ (ix3 e r k) (ix2 (tok e r) k) (by
    rewrite [Shape.rowMajor_val_two, Shape.rowMajor_val_three]
    show (e.val * 2048 + r.val) * 2048 + k.val = (e.val * 2048 + r.val) * 2048 + k.val
    rfl)

/-- The narrowed up-projection is the argument. -/
theorem up_entry (c : Dev nD) (i : S8x2048x2816.Idx) : (V m c main_v2 : S8x2048x2816.Idx → EReal) i = w1arg m c i := by
  have h : (V m c main_v2 : S8x2048x2816.Idx → EReal) = (truncf (F := Ideal) .bf16 (w1arg m c) bitsLt_bf16_f32 : FVec Ideal S8x2048x2816 .bf16) := by
    show StableHlo.after hostOps0 (fun b => m (c, b)) (Proc.devRef .tc main_v2) = _
    after_results
  rw [h, truncf_apply]

/-- The narrowed down-projection is the argument. -/
theorem down_entry (c : Dev nD) (i : S8x1408x2048.Idx) : (V m c main_v3 : S8x1408x2048.Idx → EReal) i = w2arg m c i := by
  have h : (V m c main_v3 : S8x1408x2048.Idx → EReal) = (truncf (F := Ideal) .bf16 (w2arg m c) bitsLt_bf16_f32 : FVec Ideal S8x1408x2048 .bf16) := by
    show StableHlo.after hostOps0 (fun b => m (c, b)) (Proc.devRef .tc main_v3) = _
    after_results
  rw [h, truncf_apply]

/-! ## The index maps, decided once over the 64 points -/

theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-! ## The input blocks at a point, as rectangles of the arguments -/

abbrev xblk (c : Dev nD) (t : Fin cfg0.N) : Vec Ideal S1x256x2048 .bf16 := iblk m c 0 t
abbrev w1blk (c : Dev nD) (t : Fin cfg0.N) : Vec Ideal S1x2048x2816 .bf16 := iblk m c 1 t
abbrev w2blk (c : Dev nD) (t : Fin cfg0.N) : Vec Ideal S1x1408x2048 .bf16 := iblk m c 2 t

/-- Row `p` of the token block at point `t` is token `(t % 8) · 256 + p` of expert `t / 8`. -/
theorem xblk_apply (c : Dev nD) (t : Fin cfg0.N) (p : Fin 256) (k : Fin 2048) (e : Fin 8) (r : Fin 2048)
    (he : e.val = t.val / 8) (hr : r.val = t.val % 8 * 256 + p.val) :
    xblk m c t (ix3 0 p k) = xarg m c (ix2 (tok e r) k) := by
  obtain ⟨a0, a1, a2, -⟩ := idx_facts t
  have hemb : ((cfg0.win 0).blk t).view.emb (ix3 0 p k) = ix3 e r k := by
    funext a; apply Fin.ext
    match a with
    | ⟨0, _⟩ => show win0_0.index t (0 : Fin 3) * 1 + 1 * 0 = e.val; omega
    | ⟨1, _⟩ => show win0_0.index t (1 : Fin 3) * 256 + 1 * p.val = r.val; omega
    | ⟨2, _⟩ => show win0_0.index t (2 : Fin 3) * 2048 + 1 * k.val = k.val; omega
  show iblk m c 0 t (ix3 0 p k) = _
  unfold iblk
  rw [View.read_apply]
  show (V m c main_v1 : S8x2048x2048.Idx → EReal) (((cfg0.win 0).blk t).view.emb (ix3 0 p k)) = _
  rw [hemb]
  exact tokens_entry m c e r k

/-- The up-projection block at point `t` is expert `t / 8`'s. -/
theorem w1blk_apply (c : Dev nD) (t : Fin cfg0.N) (k : Fin 2048) (f : Fin 2816) (e : Fin 8) (he : e.val = t.val / 8) :
    w1blk m c t (ix3 0 k f) = w1arg m c (ix3 e k f) := by
  obtain ⟨-, -, -, a0, a1, a2, -⟩ := idx_facts t
  have hemb : ((cfg0.win 1).blk t).view.emb (ix3 0 k f) = ix3 e k f := by
    funext a; apply Fin.ext
    match a with
    | ⟨0, _⟩ => show win0_1.index t (0 : Fin 3) * 1 + 1 * 0 = e.val; omega
    | ⟨1, _⟩ => show win0_1.index t (1 : Fin 3) * 2048 + 1 * k.val = k.val; omega
    | ⟨2, _⟩ => show win0_1.index t (2 : Fin 3) * 2816 + 1 * f.val = f.val; omega
  show iblk m c 1 t (ix3 0 k f) = _
  unfold iblk
  rw [View.read_apply]
  show (V m c main_v2 : S8x2048x2816.Idx → EReal) (((cfg0.win 1).blk t).view.emb (ix3 0 k f)) = _
  rw [hemb]
  exact up_entry m c _

/-- The down-projection block at point `t` is expert `t / 8`'s. -/
theorem w2blk_apply (c : Dev nD) (t : Fin cfg0.N) (f : Fin 1408) (h : Fin 2048) (e : Fin 8) (he : e.val = t.val / 8) :
    w2blk m c t (ix3 0 f h) = w2arg m c (ix3 e f h) := by
  obtain ⟨-, -, -, -, -, -, a0, a1, a2, -⟩ := idx_facts t
  have hemb : ((cfg0.win 2).blk t).view.emb (ix3 0 f h) = ix3 e f h := by
    funext a; apply Fin.ext
    match a with
    | ⟨0, _⟩ => show win0_2.index t (0 : Fin 3) * 1 + 1 * 0 = e.val; omega
    | ⟨1, _⟩ => show win0_2.index t (1 : Fin 3) * 1408 + 1 * f.val = f.val; omega
    | ⟨2, _⟩ => show win0_2.index t (2 : Fin 3) * 2048 + 1 * h.val = h.val; omega
  show iblk m c 2 t (ix3 0 f h) = _
  unfold iblk
  rw [View.read_apply]
  show (V m c main_v3 : S8x1408x2048.Idx → EReal) (((cfg0.win 2).blk t).view.emb (ix3 0 f h)) = _
  rw [hemb]
  exact down_entry m c _

/-! ## What a point writes back, the cover, the array -/

theorem zero_offsets : (![0, 0, 0] : Fin 3 → Nat) = fun _ => 0 := funext fun a => by fin_cases a <;> rfl

/-- The [8, 2048, 2048] array the region leaves: `G` of the arguments. -/
abbrev result (c : Dev nD) : Buf (Elt Ideal) ((c : Thread nD τ).loc main_v4) := G (xarg m c) (w1arg m c) (w2arg m c)

/-- What point `t` writes back is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zero_offsets]
  simp only [View.ld_unit_zero (S := S1x256x2048) zero_offsets, View.ld_unit_zero (S := S1x2048x2816) zero_offsets,
    View.ld_unit_zero (S := S1x1408x2048) zero_offsets]
  obtain ⟨-, -, -, -, -, -, -, -, -, o0, o1, o2⟩ := idx_facts t
  have ht : t.val < 64 := Nat.lt_of_lt_of_eq t.isLt N_0
  funext j
  obtain ⟨z, p, q, rfl⟩ : ∃ (z : Fin 1) (p : Fin 256) (q : Fin 2048), j = ix3 z p q := ⟨j 0, j 1, j 2, eq_ix3 j⟩
  obtain rfl : z = 0 := Fin.ext (by have := z.isLt; omega)
  have hp := p.isLt
  let e : Fin 8 := ⟨t.val / 8, by omega⟩
  let r : Fin 2048 := ⟨t.val % 8 * 256 + p.val, by omega⟩
  have hemb : ((cfg0.win 3).blk t).view.emb (ix3 0 p q) = ix3 e r q := by
    funext a; apply Fin.ext
    match a with
    | ⟨0, _⟩ => show win0_3.index t (0 : Fin 3) * 1 + 1 * 0 = t.val / 8; omega
    | ⟨1, _⟩ => show win0_3.index t (1 : Fin 3) * 256 + 1 * p.val = t.val % 8 * 256 + p.val; omega
    | ⟨2, _⟩ => show win0_3.index t (2 : Fin 3) * 2048 + 1 * q.val = q.val; omega
  show k0_pay1 (xblk m c t) (w1blk m c t) (w2blk m c t) (ix3 0 p q)
    = (result m c : S8x2048x2048.Idx → EReal) (((cfg0.win 3).blk t).view.emb (ix3 0 p q))
  rw [hemb, Body.stored_apply (xblk m c t) (w1blk m c t) (w2blk m c t) 0 p q]
  show mlp _ _ _ = mlp (fun k => xarg m c (ix2 (tok e r) k)) (fun k f => w1arg m c (ix3 e k f)) (fun f => w2arg m c (ix3 e f q))
  congr 1
  · funext k; exact xblk_apply m c t p k e r rfl rfl
  · funext k f; exact w1blk_apply m c t k f e rfl
  · funext f; exact w2blk_apply m c t f q e rfl

/-- An index of the array is in point `t`'s block iff each coordinate is in the block's range on its axis. -/
theorem mem_blk (t : Fin cfg0.N) (i : S8x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v4).slice (win0_3.rect t)).set ↔ _
  rw [View.set_slice_whole, Rect.mem_set_unit]
  exact Iff.rfl

/-- Every index (e, r, h) is in the block of point `e · 8 + r / 256`. -/
theorem cover (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hN : cfg0.N = 64 := N_0
  let t : Fin cfg0.N := ⟨(i 0).val * 8 + (i 1).val / 256, by rw [hN]; omega⟩
  have tv : t.val = (i 0).val * 8 + (i 1).val / 256 := rfl
  obtain ⟨-, -, -, -, -, -, -, -, -, o0, o1, o2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 2048 ≤ (i 2).val ∧ (i 2).val < win0_3.index t (2 : Fin 3) * 2048 + 2048
    omega

/-- The region leaves `result` in its output array. -/
theorem final (c : Dev nD) : (dats m 0 c).arrAt 3 cfg0.N = result m c :=
  (dats m 0 c).arrAt_eq_of_cover 3 (result m c) (fun t _ => flushed_eq m c t) cover

/-! ## The run, with the reshape that follows the region -/

/-- The program's result: `result` reshaped [16384, 2048]. -/
abbrev reshaped (c : Dev nD) : Buf (Elt Ideal) ((c : Thread nD τ).loc main_v5) :=
  shapeCast S16384x2048 (result m c) shapeCasts_S8x2048x2048_S16384x2048

/-- After the operation that follows the region, the result buffer holds the reshaped array. -/
theorem tail_eq (c : Dev nD) :
    Pipeline.afterTail₀ cfgs (dats m) 0 (V0 m) [hostOps1] c main_v5 = reshaped m c := by
  unfold Pipeline.afterTail₀
  show StableHlo.after hostOps1 _ (Proc.devRef .tc main_v5) = _
  after_results
  rw [(Pipeline.withArrays_arr spec0 launch0.win.arr_inj c _ _ 3).trans (final m c)]
  rfl

/-- Every weakly fair execution ends with the result buffer at the reshaped `G` of the arguments and the arguments
    unchanged. -/
theorem run : θ_run defs (onTc (τ := τ) (main (F := Ideal))) ⟨m, fun _ => 0, ρ⟩ fun r => ∀ c : Dev nD,
      r.2.mem ((c.tc : Thread nD τ).loc main_v5) = reshaped m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Region

end
-- ==== Proof.lean ====
/-
  A mixture-of-experts feed-forward layer with equal expert loads: 8 experts, 2048 tokens each, hidden width 2048,
  gated inner width 1408. For expert `e` and its token `r` the layer computes

      out[e · 2048 + r, h] = ∑ f < 1408, ((a f · σ(a f)) · b f) · w2[e, f, h],
        a f = ∑ k < 2048, x[e · 2048 + r, k] · w1[e, k, f],     b f = ∑ k < 2048, x[e · 2048 + r, k] · w1[e, k, 1408 + f],

  with `σ` the logistic function. The kernel tiles each expert's tokens by 256 rows and narrows its operands to bf16;
  the reference is two batched products around the gate, its logistic function spelt `1 / (1 + e^(-a))`. Over the
  extended reals a narrowing is the identity, a matrix product into a zero accumulator is the plain sum, and the
  spelt-out logistic function is the logistic function, so both programs compute `G` (Proof/Spec.lean) reshaped
  [16384, 2048]: the reference by reading its operations index by index (Proof/RefSide.lean), the kernel by reading
  what one grid point stores (Proof/Payload.lean) and tiling the result array by the 64 blocks (Proof/Region.lean).
  No step moves a factor across a sum, so the finiteness of the inputs is not used. The integer argument (tokens per
  expert) is read by neither program.
-/
import proofs.«170765_j60026462929318_1_alg».proof.Defs
import proofs.«170765_j60026462929318_1_alg».proof.Proof.Gen.Kernel
import proofs.«170765_j60026462929318_1_alg».proof.Proof.Gen.Kernel.Skeleton
import proofs.«170765_j60026462929318_1_alg».proof.Proof.Gen.Kernel.Launch
import proofs.«170765_j60026462929318_1_alg».proof.Proof.Gen.Kernel.Points
import proofs.«170765_j60026462929318_1_alg».proof.Proof.Gen.Kernel.Frame
import proofs.«170765_j60026462929318_1_alg».proof.Proof.Gen.KernelIdeal
import proofs.«170765_j60026462929318_1_alg».proof.Proof.Gen.KernelIdeal.Skeleton
import proofs.«170765_j60026462929318_1_alg».proof.Proof.Gen.KernelIdeal.Launch
import proofs.«170765_j60026462929318_1_alg».proof.Proof.Gen.KernelIdeal.Points
import proofs.«170765_j60026462929318_1_alg».proof.Proof.Gen.KernelIdeal.Frame
import proofs.«170765_j60026462929318_1_alg».proof.Proof.Gen.ReferenceIdeal
import proofs.«170765_j60026462929318_1_alg».proof.Proof.Gen.Pre_finite_inputs
import proofs.«170765_j60026462929318_1_alg».proof.Proof.Gen.ReferenceIdeal.Run
import proofs.«170765_j60026462929318_1_alg».proof.Proof.Gen.ReferenceIdeal.Read
import proofs.«170765_j60026462929318_1_alg».proof.Proof.RefSide
import proofs.«170765_j60026462929318_1_alg».proof.Proof.Region
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result buffer at `G` of the arguments,
    reshaped [16384, 2048]. -/
theorem algebraic : Cert.algebraic_KernelIdeal_ReferenceIdeal := by
  intro m ρ m' ρ' _ hagree
  refine ⟨fun c => Cert.KernelIdeal.Region.reshaped m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  show Cert.ReferenceIdeal.Read.val_main_v7 (F := Ideal) _ _ _ = _
  unfold Cert.ReferenceIdeal.Read.val_main_v7
  rw [Cert.ReferenceIdeal.RefValue.stage_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
